-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096 : Shape := ⟨1, ![4096]⟩
abbrev S32000x4096 : Shape := ⟨2, ![32000, 4096]⟩
abbrev S2x2048 : Shape := ⟨2, ![2, 2048]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S32000x4096 : S_.BroadcastsInDim S32000x4096 (![] : Fin 0 → Fin S32000x4096.rank)
  reducesTo_S32000x4096_S_d0_1 : S32000x4096.ReducesTo [0, 1] S_

variable [Facts]

def fn {F : FTy → Type} [FloatOps F] (main_arg0 : FVec F S2x2048x4096 .f32) (main_arg1 : FVec F S4096 .f32) (main_arg2 : FVec F S32000x4096 .f32) (main_arg3 : IVec S2x2048 32) (main_arg4 : IVec S2x2048 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S32000x4096 .f32 := Host.absf main_arg2
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  main_v13
-- ==== Kernel.lean ====
abbrev S2x2048x4096 : Shape := ⟨3, ![2, 2048, 4096]⟩
abbrev S4096 : Shape := ⟨1, ![4096]⟩
abbrev S32000x4096 : Shape := ⟨2, ![32000, 4096]⟩
abbrev S2x2048 : Shape := ⟨2, ![2, 2048]⟩
abbrev S4096x4096 : Shape := ⟨2, ![4096, 4096]⟩
abbrev S4096x32000 : Shape := ⟨2, ![4096, 32000]⟩
abbrev S256x4096 : Shape := ⟨2, ![256, 4096]⟩
abbrev S1280x4096 : Shape := ⟨2, ![1280, 4096]⟩
abbrev S256x1280 : Shape := ⟨2, ![256, 1280]⟩
abbrev S256 : Shape := ⟨1, ![256]⟩
abbrev S256x1 : Shape := ⟨2, ![256, 1]⟩
abbrev S1x4096 : Shape := ⟨2, ![1, 4096]⟩
abbrev S2x2048x32000 : Shape := ⟨3, ![2, 2048, 32000]⟩
abbrev S2x2047x32000 : Shape := ⟨3, ![2, 2047, 32000]⟩
abbrev S4094x32000 : Shape := ⟨2, ![4094, 32000]⟩
abbrev S2x2047 : Shape := ⟨2, ![2, 2047]⟩
abbrev S4094 : Shape := ⟨1, ![4094]⟩

abbrev nBuf : Space → Nat
  | .hbm => 13
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096, .f32⟩
  | .hbm, ⟨2, _⟩ => ⟨S32000x4096, .f32⟩
  | .hbm, ⟨3, _⟩ => ⟨S2x2048, .i32⟩
  | .hbm, ⟨4, _⟩ => ⟨S2x2048, .i32⟩
  | .hbm, ⟨5, _⟩ => ⟨S4096x4096, .f32⟩
  | .hbm, ⟨6, _⟩ => ⟨S32000x4096, .bf16⟩
  | .hbm, ⟨7, _⟩ => ⟨S4096x32000, .f32⟩
  | .hbm, ⟨8, _⟩ => ⟨S2x2048x32000, .f32⟩
  | .hbm, ⟨9, _⟩ => ⟨S2x2047x32000, .f32⟩
  | .hbm, ⟨10, _⟩ => ⟨S4094x32000, .f32⟩
  | .hbm, ⟨11, _⟩ => ⟨S2x2047, .i32⟩
  | .hbm, ⟨12, _⟩ => ⟨S4094, .i32⟩
  | .local _ .vmem, ⟨0, _⟩ => ⟨S256x4096, .f32⟩
  | .local _ .vmem, ⟨1, _⟩ => ⟨S256x4096, .f32⟩
  | .local _ .vmem, ⟨2, _⟩ => ⟨S1280x4096, .bf16⟩
  | .local _ .vmem, ⟨3, _⟩ => ⟨S1280x4096, .bf16⟩
  | .local _ .vmem, ⟨4, _⟩ => ⟨S4096, .f32⟩
  | .local _ .vmem, ⟨5, _⟩ => ⟨S256x1280, .f32⟩
  | .local _ .vmem, ⟨6, _⟩ => ⟨S256x1280, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![25, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x2048x4096_S4096x4096 : S2x2048x4096.ShapeCasts S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  reduces_S256x4096_S256 : S256x4096.Reduces [1] S256
  shapeCasts_S256_S256x1 : S256.ShapeCasts S256x1
  broadcasts_S256x1_S256x4096 : S256x1.Broadcasts S256x4096
  shapeCasts_S4096_S1x4096 : S4096.ShapeCasts S1x4096
  broadcasts_S1x4096_S256x4096 : S1x4096.Broadcasts S256x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  inb_S256x1280_S256x1280_0_0 : ∀ a, (![0, 0] : Fin 2 → Nat) a + S256x1280.size a ≤ S256x1280.size a
  h_S256x1280 : 0 < S256x1280.numel
  shapeCasts_S4096x32000_S2x2048x32000 : S4096x32000.ShapeCasts S2x2048x32000
  slices_S2x2048x32000_S2x2047x32000_0_0_0 : S2x2048x32000.Slices ![0, 0, 0] S2x2047x32000
  shapeCasts_S2x2047x32000_S4094x32000 : S2x2047x32000.ShapeCasts S4094x32000
  slices_S2x2048_S2x2047_0_1 : S2x2048.Slices ![0, 1] S2x2047
  shapeCasts_S2x2047_S4094 : S2x2047.ShapeCasts S4094
  dot_S256x4096_S1280x4096_S256x1280_1_1_0_0_n_n_wf : DotDims.WF S256x4096 S1280x4096 S256x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1280.size a ≤ S4096x32000.size a
  hwx0_3 : ∀ i : grid0.Coords, EltTy.bits .f32 = 32 ∨ (Rect.block (s := S4096x32000) S256x1280.size (cc0_transform_3 i) (hinb0_3 i)).WholeWords (EltTy.packing .f32)

variable [Facts₀]

def dot_S256x4096_S1280x4096_S256x1280_1_1_0_0_n_n : DotDims S256x4096 S1280x4096 S256x1280 where
  lhsContracting := [1]
  rhsContracting := [1]
  lhsNonContracting := [0]
  rhsNonContracting := [0]
  lhsBatch := []
  rhsBatch := []
  wf := dot_S256x4096_S1280x4096_S256x1280_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096 : Shape := ⟨1, ![4096]⟩
abbrev S32000x4096 : Shape := ⟨2, ![32000, 4096]⟩
abbrev S2x2048 : Shape := ⟨2, ![2, 2048]⟩
abbrev S_ : Shape := ⟨0, ![]⟩
abbrev S2x2048x1 : Shape := ⟨3, ![2, 2048, 1]⟩
abbrev S1x1x4096 : Shape := ⟨3, ![1, 1, 4096]⟩
abbrev S2x2048x32000 : Shape := ⟨3, ![2, 2048, 32000]⟩
abbrev S2x2047x32000 : Shape := ⟨3, ![2, 2047, 32000]⟩
abbrev S4094x32000 : Shape := ⟨2, ![4094, 32000]⟩
abbrev S2x2047 : Shape := ⟨2, ![2, 2047]⟩
abbrev S4094 : Shape := ⟨1, ![4094]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096, .f32⟩
  | .hbm, ⟨2, _⟩ => ⟨S32000x4096, .f32⟩
  | .hbm, ⟨3, _⟩ => ⟨S2x2048, .i32⟩
  | .hbm, ⟨4, _⟩ => ⟨S2x2048, .i32⟩
  | .hbm, ⟨5, _⟩ => ⟨S2x2048x4096, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x4096, .f32⟩
  | .hbm, ⟨17, _⟩ => ⟨S2x2048x4096, .f32⟩
  | .hbm, ⟨18, _⟩ => ⟨S1x1x4096, .f32⟩
  | .hbm, ⟨19, _⟩ => ⟨S2x2048x4096, .f32⟩
  | .hbm, ⟨20, _⟩ => ⟨S2x2048x4096, .f32⟩
  | .hbm, ⟨21, _⟩ => ⟨S2x2048x32000, .f32⟩
  | .hbm, ⟨22, _⟩ => ⟨S2x2047x32000, .f32⟩
  | .hbm, ⟨23, _⟩ => ⟨S4094x32000, .f32⟩
  | .hbm, ⟨24, _⟩ => ⟨S2x2047, .i32⟩
  | .hbm, ⟨25, _⟩ => ⟨S4094, .i32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  slices_S2x2048x32000_S2x2047x32000_0_0_0 : S2x2048x32000.Slices ![0, 0, 0] S2x2047x32000
  shapeCasts_S2x2047x32000_S4094x32000 : S2x2047x32000.ShapeCasts S4094x32000
  slices_S2x2048_S2x2047_0_1 : S2x2048.Slices ![0, 1] S2x2047
  shapeCasts_S2x2047_S4094 : S2x2047.ShapeCasts S4094
  dot_S2x2048x4096_S32000x4096_S2x2048x32000_2_1_01_0_n_n_wf : DotDims.WF S2x2048x4096 S32000x4096 S2x2048x32000 [2] [1] [0, 1] [0] [] []

variable [Facts₀]

def dot_S2x2048x4096_S32000x4096_S2x2048x32000_2_1_01_0_n_n : DotDims S2x2048x4096 S32000x4096 S2x2048x32000 where
  lhsContracting := [2]
  rhsContracting := [1]
  lhsNonContracting := [0, 1]
  rhsNonContracting := [0]
  lhsBatch := []
  rhsBatch := []
  wf := dot_S2x2048x4096_S32000x4096_S2x2048x32000_2_1_01_0_n_n_wf

class Facts : Prop extends Facts₀ where

variable [Facts]
-- ==== Proof.RowLogit.lean ====
/-
  The mathematics both programs compute, stated once over plain rows.

  For a row `x` of 4096 extended reals its reciprocal root-mean-square is
  `(Σₖ xₖ² / 4096 + ε)^(-1/2)`, the divisor `4096` and `ε` being the two f32 literals that both
  programs carry (the same words on both sides, so they are never evaluated). One logit is the
  normalised row, scaled entry by entry by the gain `g`, contracted against one weight row `w`:
  `Σₖ xₖ · invRms x · gₖ · wₖ`, in exactly that order of products, which is the order both programs
  multiply in; no distributivity is used, so no finiteness either.

  Also here: a column vector made from a vector (`[a] → [a, 1]`) and a column spread over a row
  (`[a, 1] → [a, b]`), read at an index.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RmsHead

open Idealize.ShloMosaic Idealize.ShloMosaic.ValueIdx

/-- The reciprocal root-mean-square of a row: `(Σₖ xₖ² / 4096 + ε)^(-1/2)`. -/
def invRms (x : Fin 4096 → EReal) : EReal :=
  Ideal.rsqrt (Ideal.div (∑ k : Fin 4096, x k * x k) (Ideal.ofBits .f32 0x45800000#32) + Ideal.ofBits .f32 0x358637BD#32)

/-- One logit: the row `x` normalised by its reciprocal root-mean-square, scaled by the gain `g`,
    contracted against the weight row `w`. -/
def logit (x g w : Fin 4096 → EReal) : EReal :=
  ∑ k : Fin 4096, x k * invRms x * g k * w k

/-- A vector of `a` entries recast as a column `[a, 1]`: entry `(p, 0)` is entry `p`. -/
theorem column_of_vector_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have hz : z.val < 1 := z.isLt
  omega

/-- A column `[a, 1]` spread over `b` lanes: entry `(p, k)` is the column's entry `(p, 0)`. -/
theorem spread_column_apply {α : Type} {a b : ℕ} (v : (⟨2, ![a, 1]⟩ : Shape).Idx → α)
    (h : (⟨2, ![a, 1]⟩ : Shape).Broadcasts ⟨2, ![a, b]⟩) (ha : a ≠ 1) (p : Fin a) (k : Fin b) :
    broadcastTo ⟨2, ![a, b]⟩ v h (ix2 p k) = v (ix2 p (0 : Fin 1)) := by
  refine broadcastTo_apply v h (ix2 p k) (ix2 p (0 : Fin 1)) fun d => ?_
  match d with
  | ⟨0, _⟩ => show p.val = if a = 1 then 0 else p.val; rw [if_neg ha]
  | ⟨1, _⟩ => show 0 = if (1 : ℕ) = 1 then 0 else k.val; rw [if_pos rfl]

end Cert.RmsHead

end
-- ==== Proof.KernelBlock.lean ====
/-
  The kernel body's stored value, read at one entry of the output block.

  At a grid point the body holds a block `x` of 256 rows of the activations, the whole gain vector
  `g` and a block `w` of 1280 rows of the weights. Its one store writes, at `(p, q)`, the matrix
  product of the normalised, gained block with the weight block contracted over the 4096 columns.
  Read at the exact extended reals this is `logit (row p of x) g (row q of w)`:
  the lane sum of squares is a plain sum over the row, the column vector it is recast to and the
  spread of that column back over the lanes read the same entry, the narrowing to bf16 is the
  identity, and the product into the zero accumulator is the sum over the contracted column.
-/
import proofs.«137859_j42468636623331_1_alg».proof.Proof.Gen.KernelIdeal.Skeleton
import proofs.«137859_j42468636623331_1_alg».proof.Proof.RowLogit

noncomputable section

namespace Cert.RmsHead

open Idealize.ShloMosaic Idealize.ShloMosaic.ValueIdx Cert.KernelIdeal Cert.KernelIdeal.Gen

variable [Cert.KernelIdeal.Facts]

/-- The lane sum of a block's squares, at row `p`: the sum over the row's 4096 entries. -/
theorem row_squares (x : FVec Ideal S256x4096 .f32) (h : S256x4096.Reduces [1] S256) (hφ : FKind.Formats .f32)
    (hacc : (0x00000000#32 : BitVec 32) = FKind.add.neutral .f32 hφ) (p : Fin 256) :
    multiReduction .add [1] S256 (mulf x x) 0x00000000#32 h hφ hacc (ix1 p)
      = ∑ k : Fin 4096, x (ix2 p k) * x (ix2 p k) := by
  rw [Ideal.multiReduction_add_single]
  refine Finset.sum_congr rfl fun k _ => ?_
  have e : h.lift (ix1 p) k = ix2 p k :=
    funext fun a => Fin.ext (by match a with | ⟨0, _⟩ => rfl | ⟨1, _⟩ => rfl)
  rw [e]
  rfl

/-- The two operand indices of the block product at output entry `(p, q)` and contracted column `k`. -/
theorem lhs_block_0 (i : S256x1280.Idx) (c : dot_S256x4096_S1280x4096_S256x1280_1_1_0_0_n_n.contr.Idx) :
    (dot_S256x4096_S1280x4096_S256x1280_1_1_0_0_n_n.lhsIdx i c 0).val = (i 0).val := by
  unfold DotDims.lhsIdx
  rw [dif_neg (show ¬(0 : Fin S256x4096.rank) ∈ dot_S256x4096_S1280x4096_S256x1280_1_1_0_0_n_n.lhsBatch by decide), dif_pos (show (0 : Fin S256x4096.rank) ∈ dot_S256x4096_S1280x4096_S256x1280_1_1_0_0_n_n.lhsNonContracting by decide)]
  rfl
theorem lhs_block_1 (i : S256x1280.Idx) (c : dot_S256x4096_S1280x4096_S256x1280_1_1_0_0_n_n.contr.Idx) :
    (dot_S256x4096_S1280x4096_S256x1280_1_1_0_0_n_n.lhsIdx i c 1).val = (c ⟨0, by decide⟩).val :=
  dot_S256x4096_S1280x4096_S256x1280_1_1_0_0_n_n.lhsIdx_val_of_single rfl i c
theorem rhs_block_0 (i : S256x1280.Idx) (c : dot_S256x4096_S1280x4096_S256x1280_1_1_0_0_n_n.contr.Idx) :
    (dot_S256x4096_S1280x4096_S256x1280_1_1_0_0_n_n.rhsIdx i c 0).val = (i 1).val := by
  unfold DotDims.rhsIdx
  rw [dif_neg (show ¬(0 : Fin S1280x4096.rank) ∈ dot_S256x4096_S1280x4096_S256x1280_1_1_0_0_n_n.rhsBatch by decide), dif_pos (show (0 : Fin S1280x4096.rank) ∈ dot_S256x4096_S1280x4096_S256x1280_1_1_0_0_n_n.rhsNonContracting by decide)]
  rfl
theorem rhs_block_1 (i : S256x1280.Idx) (c : dot_S256x4096_S1280x4096_S256x1280_1_1_0_0_n_n.contr.Idx) :
    (dot_S256x4096_S1280x4096_S256x1280_1_1_0_0_n_n.rhsIdx i c 1).val = (c ⟨0, by decide⟩).val :=
  dot_S256x4096_S1280x4096_S256x1280_1_1_0_0_n_n.rhsIdx_val_of_single rfl i c

/-- The block product into the zero accumulator, at `(p, q)`: row `p` of the left block against row
    `q` of the right block, summed over the 4096 columns. -/
theorem block_product (L : FVec Ideal S256x4096 .bf16) (R : FVec Ideal S1280x4096 .bf16) (p : Fin 256) (q : Fin 1280) :
    matmul dot_S256x4096_S1280x4096_S256x1280_1_1_0_0_n_n none L R (constant S256x1280 .f32 0x00000000#32) (ix2 p q)
      = ∑ k : Fin 4096, L (ix2 p k) * R (ix2 q k) := by
  simp only [matmul]
  rw [Ideal.matmul_constant_zero_apply, ← Equiv.sum_comp (ValueIdx.contrEquiv1 dot_S256x4096_S1280x4096_S256x1280_1_1_0_0_n_n 4096 rfl rfl).symm]
  refine Finset.sum_congr rfl fun k _ => ?_
  have hk := ValueIdx.contrEquiv1_symm_val dot_S256x4096_S1280x4096_S256x1280_1_1_0_0_n_n 4096 rfl rfl k
  have el : dot_S256x4096_S1280x4096_S256x1280_1_1_0_0_n_n.lhsIdx (ix2 p q) ((ValueIdx.contrEquiv1 dot_S256x4096_S1280x4096_S256x1280_1_1_0_0_n_n 4096 rfl rfl).symm k) = ix2 p k := funext fun a => Fin.ext (by
    match a with
    | ⟨0, _⟩ => exact lhs_block_0 _ _
    | ⟨1, _⟩ => exact (lhs_block_1 _ _).trans hk)
  have er : dot_S256x4096_S1280x4096_S256x1280_1_1_0_0_n_n.rhsIdx (ix2 p q) ((ValueIdx.contrEquiv1 dot_S256x4096_S1280x4096_S256x1280_1_1_0_0_n_n 4096 rfl rfl).symm k) = ix2 q k := funext fun a => Fin.ext (by
    match a with
    | ⟨0, _⟩ => exact rhs_block_0 _ _
    | ⟨1, _⟩ => exact (rhs_block_1 _ _).trans hk)
  rw [el, er]

/-- THE BLOCK'S ENTRY: what the body stores at `(p, q)` is the logit of row `p` of the activation block,
    the gain, and row `q` of the weight block. -/
theorem block_logit (x0 : Vec Ideal S256x4096 .f32) (x2 : Vec Ideal S4096 .f32) (x1 : Vec Ideal S1280x4096 .bf16)
    (p : Fin 256) (q : Fin 1280) :
    k0_pay1 x0 x2 x1 (ix2 p q) = logit (fun k => x0 (ix2 p k)) (fun k => x2 (ix1 k)) (fun k => x1 (ix2 q k)) := by
  unfold k0_pay1
  dsimp only
  simp only [shapeCast_self]
  rw [block_product]
  unfold logit
  refine Finset.sum_congr rfl fun k _ => ?_
  show x0 (ix2 p k) * broadcastTo S256x4096 _ _ (ix2 p k)
      * broadcastTo S256x4096 (shapeCast S1x4096 x2 _) _ (ix2 p k)
      * x1 (ix2 q k) = _
  rw [spread_column_apply _ _ (by decide) p k,
    broadcastTo_1b_ab_apply _ _ p k, shapeCast_a_1a_apply x2 _ 0 k]
  refine congrArg (fun r => x0 (ix2 p k) * r * x2 (ix1 k) * x1 (ix2 q k)) ?_
  show Ideal.rsqrt (Ideal.div (shapeCast S256x1 _ _ (ix2 p (0 : Fin 1))) (Ideal.ofBits .f32 0x45800000#32)
      + Ideal.ofBits .f32 0x358637BD#32) = _
  unfold invRms
  refine congrArg (fun s => Ideal.rsqrt (Ideal.div s (Ideal.ofBits .f32 0x45800000#32) + Ideal.ofBits .f32 0x358637BD#32)) ?_
  refine (column_of_vector_apply _ _ p 0).trans ?_
  exact row_squares x0 _ _ _ p

end Cert.RmsHead

end
-- ==== Proof.KernelArray.lean ====
/-
  From blocks to the whole output array of the kernel.

  The grid has 25 × 16 points; at point `(j, i)` the body sees rows `256 i … 256 i + 255` of the flat
  activations, rows `1280 j … 1280 j + 1279` of the weights and the whole gain, and writes block
  `(i, j)` of the output. Its entry `(p, q)` is a logit of activation row `256 i + p` and weight row
  `1280 j + q`, which is entry `(256 i + p, 1280 j + q)` of ONE function of the three arrays:
  `logits H g W (r, v) = logit (row r of H) g (row v of W)`. Every entry of the array lies in the
  block of the point `(v / 1280, r / 256)`, so after the run the array is that function.
-/
import proofs.«137859_j42468636623331_1_alg».proof.Proof.Gen.KernelIdeal.Frame
import proofs.«137859_j42468636623331_1_alg».proof.Proof.KernelBlock
import Idealize.ShloMosaic.Lib.Pipeline.Value

set_option maxRecDepth 16384

noncomputable section

namespace Cert.RmsHead

open Idealize.ShloMosaic Idealize.ShloMosaic.TcCoe Idealize.ShloMosaic.ValueIdx Idealize.SL.Sem
open Cert.KernelIdeal Cert.KernelIdeal.Gen

/-- The whole array of logits: entry `(r, v)` pairs row `r` of the flat activations `H` with row `v` of
    the weights `W`, under the gain `g`. -/
def logits (H : S4096x4096.Idx → EReal) (g : S4096.Idx → EReal) (W : S32000x4096.Idx → EReal) : S4096x32000.Idx → EReal :=
  fun i => logit (fun k => H (ix2 (⟨(i 0).val, idx2_lt0 i⟩ : Fin 4096) k)) (fun k => g (ix1 k))
    (fun k => W (ix2 (⟨(i 1).val, idx2_lt1 i⟩ : Fin 32000) k))

variable (m : (ℓ : Loc nD τ sig) → Buf (Elt Ideal) ℓ)

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided point by point over the grid: point `t` is `(t / 16, t % 16)`; the activation
    block and the output's row block are the `t % 16`-th, the weight block and the output's column block the
    `t / 16`-th, and the gain never moves. -/
theorem index_maps : ∀ t : Fin cfg0.N, win0_0.index t (0 : Fin 2) = t.val % 16
    ∧ win0_0.index t (1 : Fin 2) = 0
    ∧ win0_1.index t (0 : Fin 2) = t.val / 16
    ∧ win0_1.index t (1 : Fin 2) = 0
    ∧ win0_2.index t (0 : Fin 1) = 0
    ∧ win0_3.index t (0 : Fin 2) = t.val % 16
    ∧ win0_3.index t (1 : Fin 2) = t.val / 16 :=
  (by decide +kernel : ∀ t : Fin grid0.N, _)

/-- WHAT POINT `t` WRITES BACK is block `t` of the logits of the arrays as the region finds them. -/
theorem flushed_logits (c : Dev nD) (t : Fin cfg0.N) :
    (dats m 0 c).flushed 3 t
      = ((cfg0.win 3).blk t).view.read (Elt Ideal) (logits (V m c main_v0) (V m c main_arg1) (V m c main_v1)) := by
  show (cfg0.win 3).cut (grid0.coords t) ((dats m 0 c).after 3 t) = _
  rw [after0_3]
  unfold out0_3
  rw [View.canon_unit_zero zero_offsets2]
  simp only [View.ld_unit_zero (S := S256x4096) zero_offsets2, View.ld_unit_zero (S := S4096) zero_offsets1,
    View.ld_unit_zero (S := S1280x4096) zero_offsets2]
  obtain ⟨e0, e1, e2, e3, e4, e5, e6⟩ := index_maps t
  funext j
  obtain ⟨p, q, rfl⟩ : ∃ (p : Fin 256) (q : Fin 1280), j = ix2 p q := ⟨j 0, j 1, eq_ix2 j⟩
  refine (block_logit (iblk m c 0 t) (iblk m c 2 t) (iblk m c 1 t) p q).trans ?_
  show _ = logits (V m c main_v0) (V m c main_arg1) (V m c main_v1) (((cfg0.win 3).blk t).view.emb (ix2 p q))
  unfold logits
  have hp : p.val < 256 := p.isLt
  have hq : q.val < 1280 := q.isLt
  have hx : (fun k : Fin 4096 => iblk m c 0 t (ix2 p k))
      = fun k => V m c main_v0 (ix2 (⟨((((cfg0.win 3).blk t).view.emb (ix2 p q)) 0).val, idx2_lt0 _⟩ : Fin 4096) k) := by
    funext k
    show V m c main_v0 (((cfg0.win 0).blk t).view.emb (ix2 p k)) = _
    refine congrArg (V m c main_v0) (funext fun a => Fin.ext ?_)
    match a with
    | ⟨0, _⟩ => show win0_0.index t (0 : Fin 2) * 256 + 1 * p.val = win0_3.index t (0 : Fin 2) * 256 + 1 * p.val; omega
    | ⟨1, _⟩ => show win0_0.index t (1 : Fin 2) * 4096 + 1 * k.val = k.val; omega
  have hg : (fun k : Fin 4096 => iblk m c 2 t (ix1 k)) = fun k => V m c main_arg1 (ix1 k) := by
    funext k
    show V m c main_arg1 (((cfg0.win 2).blk t).view.emb (ix1 k)) = _
    refine congrArg (V m c main_arg1) (funext fun a => Fin.ext ?_)
    match a with
    | ⟨0, _⟩ => show win0_2.index t (0 : Fin 1) * 4096 + 1 * k.val = k.val; omega
  have hw : (fun k : Fin 4096 => iblk m c 1 t (ix2 q k))
      = fun k => V m c main_v1 (ix2 (⟨((((cfg0.win 3).blk t).view.emb (ix2 p q)) 1).val, idx2_lt1 _⟩ : Fin 32000) k) := by
    funext k
    show V m c main_v1 (((cfg0.win 1).blk t).view.emb (ix2 q k)) = _
    refine congrArg (V m c main_v1) (funext fun a => Fin.ext ?_)
    match a with
    | ⟨0, _⟩ => show win0_1.index t (0 : Fin 2) * 1280 + 1 * q.val = win0_3.index t (1 : Fin 2) * 1280 + 1 * q.val; omega
    | ⟨1, _⟩ => show win0_1.index t (1 : Fin 2) * 4096 + 1 * k.val = k.val; omega
  rw [hx, hg, hw]

/-- An index of the array is in point `t`'s block iff each coordinate is in the block's range on its axis. -/
theorem mem_block (t : Fin cfg0.N) (i : S4096x32000.Idx) :
    i ∈ ((cfg0.win 3).blk t).view.set ↔ ∀ a : Fin 2, win0_3.index t a * S256x1280.size a ≤ (i a).val ∧ (i a).val < win0_3.index t a * S256x1280.size a + S256x1280.size a := by
  show i ∈ ((View.whole main_v2).slice (win0_3.rect t)).set ↔ _
  rw [View.set_slice_whole, Rect.mem_set_unit]
  exact Iff.rfl

/-- Every index of the output array is in some written-back block. -/
theorem blocks_cover (i : S4096x32000.Idx) :
    ∃ t : Fin cfg0.N, (cfg0.win 3).flush t = true ∧ i ∈ ((cfg0.win 3).blk t).view.set := by
  have hi0 : (i 0).val < 4096 := (i 0).isLt
  have hi1 : (i 1).val < 32000 := (i 1).isLt
  have hN : grid0.N = 400 := N_0
  have hlt : (i 1).val / 1280 * 16 + (i 0).val / 256 < grid0.N := by omega
  obtain ⟨-, -, -, -, -, e5, e6⟩ := index_maps ⟨(i 1).val / 1280 * 16 + (i 0).val / 256, hlt⟩
  have q0 : win0_3.index ⟨(i 1).val / 1280 * 16 + (i 0).val / 256, hlt⟩ (0 : Fin 2) = (i 0).val / 256 := by
    rw [e5]; show ((i 1).val / 1280 * 16 + (i 0).val / 256) % 16 = _; omega
  have q1 : win0_3.index ⟨(i 1).val / 1280 * 16 + (i 0).val / 256, hlt⟩ (1 : Fin 2) = (i 1).val / 1280 := by
    rw [e6]; show ((i 1).val / 1280 * 16 + (i 0).val / 256) / 16 = _; omega
  generalize (⟨(i 1).val / 1280 * 16 + (i 0).val / 256, hlt⟩ : Fin cfg0.N) = t at q0 q1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1280 ≤ (i 1).val ∧ (i 1).val < win0_3.index t (1 : Fin 2) * 1280 + 1280; omega

/-- THE OUTPUT ARRAY after the run: the logits of the arrays as the region finds them. -/
theorem final_logits (c : Dev nD) :
    (dats m 0 c).arrAt 3 cfg0.N = logits (V m c main_v0) (V m c main_arg1) (V m c main_v1) :=
  (dats m 0 c).arrAt_eq_of_cover 3 _ (fun t _ => flushed_logits m c t) blocks_cover

end Cert.RmsHead

end
-- ==== Proof.KernelRun.lean ====
/-
  The idealized kernel's whole run, both results named.

  Before the region the host flattens the activations `[2, 2048, 4096] → [4096, 4096]` and narrows the
  weights to bf16, which at the exact extended reals changes nothing; the gain is passed as it is.
  After the region the host gives the logits their batch axis back, drops the last position of every
  sequence and flattens again; the labels lose their first position and are flattened. So the first
  result is that shift applied to the logits of the arguments, and the second is the shifted labels.
-/
import proofs.«137859_j42468636623331_1_alg».proof.Proof.KernelArray
import Idealize.ShloMosaic.Lib.StableHlo.Run

set_option maxRecDepth 16384

noncomputable section

namespace Cert.RmsHead

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The region finds the activations flattened to `[4096, 4096]`. -/
theorem entry_activations (c : Dev nD) :
    (V m c main_v0 : S4096x4096.Idx → EReal)
      = shapeCast S4096x4096 (m ((c : Thread nD τ).loc main_arg0)) shapeCasts_S2x2048x4096_S4096x4096 := by
  show StableHlo.after hostOps0 (fun b => m (c, b)) (Proc.devRef .tc main_v0) = _
  after_results
  rfl

/-- The region finds the weights narrowed to bf16: at the exact values, the weights themselves. -/
theorem entry_weights (c : Dev nD) :
    (V m c main_v1 : S32000x4096.Idx → EReal) = m ((c : Thread nD τ).loc main_arg2) := by
  show StableHlo.after hostOps0 (fun b => m (c, b)) (Proc.devRef .tc main_v1) = _
  after_results
  rfl

/-- The shift of the logits: the batch axis restored, the last position of each sequence dropped,
    the rows flattened again. -/
def shiftedLogits (Y : S4096x32000.Idx → EReal) : S4094x32000.Idx → EReal :=
  shapeCast S4094x32000
    (extractStridedSlice S2x2047x32000 ![0, 0, 0] (shapeCast S2x2048x32000 Y shapeCasts_S4096x32000_S2x2048x32000)
      slices_S2x2048x32000_S2x2047x32000_0_0_0)
    shapeCasts_S2x2047x32000_S4094x32000

/-- The shift of the labels: the first position of each sequence dropped, the rows flattened. -/
def shiftedLabels (T : S2x2048.Idx → BitVec 32) : S4094.Idx → BitVec 32 :=
  shapeCast S4094 (extractStridedSlice S2x2047 ![0, 1] T slices_S2x2048_S2x2047_0_1) shapeCasts_S2x2047_S4094

/-- The first result after the host tail: the shift of the output array of the region. -/
theorem tail_logits (c : Dev nD) :
    Pipeline.afterTail₀ cfgs (dats m) 0 (V0 m) [hostOps1] c main_v5
      = shiftedLogits ((dats m 0 c).arrAt 3 cfg0.N) := by
  unfold Pipeline.afterTail₀
  show StableHlo.after hostOps1 _ (Proc.devRef .tc main_v5) = _
  after_results
  exact congrArg shiftedLogits (Pipeline.withArrays_arr spec0 launch0.win.arr_inj c (V0 m c) (fun w => (dats m 0 c).arrAt w cfg0.N) 3)

/-- The second result after the host tail: the shift of the labels as launched. -/
theorem tail_labels (c : Dev nD) :
    Pipeline.afterTail₀ cfgs (dats m) 0 (V0 m) [hostOps1] c main_v7
      = shiftedLabels (m ((c : Thread nD τ).loc main_arg4)) := by
  unfold Pipeline.afterTail₀
  show StableHlo.after hostOps1 _ (Proc.devRef .tc main_v7) = _
  after_results
  exact congrArg shiftedLabels ((Pipeline.withArrays_of_ne spec0 c (V0 m c) (fun w => (dats m 0 c).arrAt w cfg0.N) main_arg4
    (by exact (by decide : ∀ w, Pipeline.arrRef spec0 w ≠ main_arg4))).trans (V_main_arg4 m c))

/-- The logits of the arguments themselves: the activations flattened, the gain and the weights as launched. -/
def kernelLogits (A0 : S2x2048x4096.Idx → EReal) (A1 : S4096.Idx → EReal) (A2 : S32000x4096.Idx → EReal) : S4096x32000.Idx → EReal :=
  logits (shapeCast S4096x4096 A0 shapeCasts_S2x2048x4096_S4096x4096) A1 A2

/-- THE KERNEL'S RUN: every weakly fair execution terminates with the first result at the shifted logits of the
    arguments, the second at the shifted labels, and the arguments unchanged. -/
theorem kernel_run : θ_run defs (onTc (τ := τ) (main (F := Ideal))) ⟨m, fun _ => 0, ρ⟩ (fun r => ∀ c : Dev nD,
      r.2.mem ((c.tc : Thread nD τ).loc main_v5)
        = shiftedLogits (kernelLogits (m ((c.tc : Thread nD τ).loc main_arg0)) (m ((c.tc : Thread nD τ).loc main_arg1)) (m ((c.tc : Thread nD τ).loc main_arg2)))
      ∧ r.2.mem ((c.tc : Thread nD τ).loc main_v7) = shiftedLabels (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans ((tail_logits m c).trans (by
        rw [final_logits, entry_activations, entry_weights, V_main_arg1]; rfl)),
      ((h c).2 main_v7 (Pipeline.mem_restRefs_of main_v7 (by decide) (by decide))).trans (tail_labels m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.RmsHead

end
-- ==== Proof.RefRows.lean ====
/-
  The reference's product array, read at one entry.

  The reference squares the activations, sums each row's squares from zero, divides by 4096, adds
  `ε`, takes the reciprocal square root, multiplies each activation row by that one number and then
  by the gain vector spread over the rows, and contracts the result against the weights over the
  last axis of both. At entry `(b, s, v)` that is `logit (row (b, s) of the activations) gain
  (row v of the weights)`: every broadcast reads the entry it was spread from, and the sum from
  the zero initial value is the plain sum.
-/
import proofs.«137859_j42468636623331_1_alg».proof.Proof.Gen.ReferenceIdeal.Read
import proofs.«137859_j42468636623331_1_alg».proof.Proof.RowLogit

noncomputable section

namespace Cert.RmsHead

open Idealize.ShloMosaic Idealize.ShloMosaic.ValueIdx Cert.ReferenceIdeal Cert.ReferenceIdeal.Gen Cert.ReferenceIdeal.Read

variable [Cert.ReferenceIdeal.Facts]

/-- The reciprocal root-mean-square the reference spreads over row `(b, s)`, read at any lane `k`. -/
theorem ref_row_factor (x0 : (⟨S2x2048x4096, .f32⟩ : BufTy).Contents (Elt Ideal)) (b : Fin 2) (s : Fin 2048) (k : Fin 4096) :
    val_main_v8 (F := Ideal) x0 (ix3 b s k) = invRms (fun k' => x0 (ix3 b s k')) := by
  rw [val_main_v8_apply, val_main_v7_apply, val_main_v6_apply, val_main_v4_apply, val_main_v2_apply, val_main_v1_apply,
    val_main_v3_apply, val_main_v5_apply, val_main_cst_0_apply, val_main_cst_1_apply, val_main_cst_apply]
  show Ideal.rsqrt (Ideal.div (Ideal.ofBits .f32 0x00000000#32 + ∑ k' : Fin 4096, val_main_v0 (F := Ideal) x0 _)
      (Ideal.ofBits .f32 0x45800000#32) + Ideal.ofBits .f32 0x358637BD#32) = _
  rw [Ideal.ofBits_zero_f32, zero_add]
  unfold invRms
  refine congrArg (fun t => Ideal.rsqrt (Ideal.div t (Ideal.ofBits .f32 0x45800000#32) + Ideal.ofBits .f32 0x358637BD#32)) ?_
  refine Finset.sum_congr rfl fun k' _ => ?_
  have e : idx_main_v1 (idx_main_v2 (idx_main_v8 (ix3 b s k))) k' = ix3 b s k' :=
    funext fun a => Fin.ext (by match a with | ⟨0, _⟩ => rfl | ⟨1, _⟩ => rfl | ⟨2, _⟩ => rfl)
  rw [e]
  rfl

/-- The gain spread over the rows, read at `(b, s, k)`: the gain's entry `k`. -/
theorem ref_gain (x1 : (⟨S4096, .f32⟩ : BufTy).Contents (Elt Ideal)) (b : Fin 2) (s : Fin 2048) (k : Fin 4096) :
    val_main_v11 (F := Ideal) x1 (ix3 b s k) = x1 (ix1 k) := by
  rw [val_main_v11_apply, val_main_v10_apply]
  exact congrArg x1 (funext fun a => Fin.ext (by match a with | ⟨0, _⟩ => rfl))

/-- THE REFERENCE'S ENTRY: its product array at `(b, s, v)` is the logit of activation row `(b, s)`,
    the gain, and weight row `v`. -/
theorem ref_logit (x0 : (⟨S2x2048x4096, .f32⟩ : BufTy).Contents (Elt Ideal)) (x1 : (⟨S4096, .f32⟩ : BufTy).Contents (Elt Ideal))
    (x2 : (⟨S32000x4096, .f32⟩ : BufTy).Contents (Elt Ideal)) (b : Fin 2) (s : Fin 2048) (v : Fin 32000) :
    val_main_v13 (F := Ideal) x0 x1 x2 (ix3 b s v)
      = logit (fun k => x0 (ix3 b s k)) (fun k => x1 (ix1 k)) (fun k => x2 (ix2 v k)) := by
  rw [val_main_v13_apply]
  unfold logit
  refine Finset.sum_congr rfl fun k _ => ?_
  have el : lidx_main_v13 (ix3 b s v) k = ix3 b s k :=
    funext fun a => Fin.ext (by match a with | ⟨0, _⟩ => rfl | ⟨1, _⟩ => rfl | ⟨2, _⟩ => rfl)
  have er : ridx_main_v13 (ix3 b s v) k = ix2 v k :=
    funext fun a => Fin.ext (by match a with | ⟨0, _⟩ => rfl | ⟨1, _⟩ => rfl)
  rw [el, er]
  show x0 (ix3 b s k) * val_main_v8 (F := Ideal) x0 (ix3 b s k) * val_main_v11 (F := Ideal) x1 (ix3 b s k) * x2 (ix2 v k) = _
  rw [ref_row_factor, ref_gain]

end Cert.RmsHead

end
-- ==== Proof.Bridge.lean ====
/-
  The two programs compute one function.

  The kernel's output array is indexed by the flat row `r = 2048 b + s`; giving it its batch axis back
  turns entry `(r, v)` into entry `(b, s, v)`, and the flattened activations' row `r` is the
  activations' row `(b, s)`. So the reshaped logits are, entry by entry, the reference's product
  array: both are `logit (row (b, s) of the activations) gain (row v of the weights)`. The two
  programs then apply the same shift to it, and the same shift to the labels.
-/
import proofs.«137859_j42468636623331_1_alg».proof.Proof.KernelRun
import proofs.«137859_j42468636623331_1_alg».proof.Proof.RefRows

noncomputable section

namespace Cert.RmsHead

open Idealize.ShloMosaic Idealize.ShloMosaic.ValueIdx

/-- Two logits with the same gain agree when their rows agree. -/
theorem logit_congr {x x' g w w' : Fin 4096 → EReal} (hx : x = x') (hw : w = w') : logit x g w = logit x' g w' := by
  rw [hx, hw]

/-- The kernel's logits with the batch axis restored are the reference's product array. -/
theorem logits_eq_reference (A0 : Cert.KernelIdeal.S2x2048x4096.Idx → EReal) (A1 : Cert.KernelIdeal.S4096.Idx → EReal)
    (A2 : Cert.KernelIdeal.S32000x4096.Idx → EReal) :
    shapeCast Cert.KernelIdeal.S2x2048x32000 (kernelLogits A0 A1 A2) Cert.KernelIdeal.Gen.shapeCasts_S4096x32000_S2x2048x32000
      = Cert.ReferenceIdeal.Read.val_main_v13 (F := Ideal) A0 A1 A2 := by
  funext i
  obtain ⟨b, s, v, rfl⟩ : ∃ (b : Fin 2) (s : Fin 2048) (v : Fin 32000), i = ix3 b s v := ⟨i 0, i 1, i 2, eq_ix3 i⟩
  have hb : b.val < 2 := b.isLt
  have hs : s.val < 2048 := s.isLt
  refine Eq.trans ?_ (ref_logit A0 A1 A2 b s v).symm
  refine (shapeCast_apply _ _ (ix3 b s v) (ix2 (⟨b.val * 2048 + s.val, by omega⟩ : Fin 4096) v) ?_).trans ?_
  · rw [Shape.rowMajor_val_two, Shape.rowMajor_val_three]; rfl
  · unfold kernelLogits logits
    refine logit_congr (funext fun k => ?_) (funext fun k => ?_)
    · refine shapeCast_apply A0 _ _ (ix3 b s k) ?_
      rw [Shape.rowMajor_val_three, Shape.rowMajor_val_two]; rfl
    · rfl

/-- The kernel's first result is the reference's. -/
theorem shifted_logits_eq (A0 : Cert.KernelIdeal.S2x2048x4096.Idx → EReal) (A1 : Cert.KernelIdeal.S4096.Idx → EReal)
    (A2 : Cert.KernelIdeal.S32000x4096.Idx → EReal) :
    shiftedLogits (kernelLogits A0 A1 A2) = Cert.ReferenceIdeal.Read.val_main_v15 (F := Ideal) A0 A1 A2 := by
  unfold shiftedLogits
  rw [logits_eq_reference]
  rfl

/-- The kernel's second result is the reference's. -/
theorem shifted_labels_eq (T : Cert.KernelIdeal.S2x2048.Idx → BitVec 32) :
    shiftedLabels T = Cert.ReferenceIdeal.Read.val_main_v17 (F := Ideal) T := rfl

end Cert.RmsHead

end
-- ==== Proof.lean ====
/-
  RMS-normalised language-model head with shifted outputs: the kernel against its jnp reference,
  over the extended reals.

  Both programs normalise every activation row by its reciprocal root-mean-square
  `(Σ x² / 4096 + ε)^(-1/2)`, scale it by the gain, contract it with every weight row, drop the last
  position of each sequence of logits and the first position of each sequence of labels, and
  flatten. The kernel does the normalisation and the contraction block by block on a 25 × 16 grid
  over flattened activations and weights narrowed to bf16 (a narrowing is the identity on the exact
  values); the reference does them on whole arrays. Entry by entry both logits are the same sum of
  the same products in the same order (`Cert.RmsHead.logit`), so no law of the extended reals
  beyond reindexing is used, and the precondition is never opened.

  The three frames: the two kernels' are the generated ones; the reference's is its generated run
  with the results dropped. The idealisation rewrote no operation, so `preserves` is `True`.
-/
import proofs.«137859_j42468636623331_1_alg».proof.Defs
import proofs.«137859_j42468636623331_1_alg».proof.Proof.Gen.Kernel
import proofs.«137859_j42468636623331_1_alg».proof.Proof.Gen.Kernel.Skeleton
import proofs.«137859_j42468636623331_1_alg».proof.Proof.Gen.Kernel.Launch
import proofs.«137859_j42468636623331_1_alg».proof.Proof.Gen.Kernel.Points
import proofs.«137859_j42468636623331_1_alg».proof.Proof.Gen.Kernel.Frame
import proofs.«137859_j42468636623331_1_alg».proof.Proof.Gen.KernelIdeal
import proofs.«137859_j42468636623331_1_alg».proof.Proof.Gen.KernelIdeal.Skeleton
import proofs.«137859_j42468636623331_1_alg».proof.Proof.Gen.KernelIdeal.Launch
import proofs.«137859_j42468636623331_1_alg».proof.Proof.Gen.KernelIdeal.Points
import proofs.«137859_j42468636623331_1_alg».proof.Proof.Gen.KernelIdeal.Frame
import proofs.«137859_j42468636623331_1_alg».proof.Proof.Gen.ReferenceIdeal
import proofs.«137859_j42468636623331_1_alg».proof.Proof.Gen.Pre_finite_inputs
import proofs.«137859_j42468636623331_1_alg».proof.Proof.Gen.ReferenceIdeal.Run
import proofs.«137859_j42468636623331_1_alg».proof.Proof.Gen.ReferenceIdeal.Read
import proofs.«137859_j42468636623331_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run leaves its arguments unchanged: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the shifted logits of the arguments and
    the shifted labels: the kernel by its run read block by block, the reference by its generated run, the two
    terms one function of the arguments. -/
theorem algebraic : Cert.algebraic_KernelIdeal_ReferenceIdeal := by
  intro m ρ m' ρ' _ hagree
  refine ⟨_, _, Cert.RmsHead.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, -, -⟩ := hagree c
    rw [a0, a1, a2]
    exact (Cert.RmsHead.shifted_logits_eq _ _ _).symm
  · obtain ⟨-, -, -, -, a4⟩ := hagree c
    rw [a4]
    exact (Cert.RmsHead.shifted_labels_eq _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
